-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg14 : FVec F S64 .f32) (main_arg15 : FVec F S64 .f32) (main_arg16 : FVec F S64x64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_v83 main_v84 main_cst_32

def fn_part3 {F : FTy → Type} [FloatOps F] (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S32 .f32) (main_arg8 : FVec F S32x32 .f32) (main_arg9 : FVec F S32 .f32) (main_arg10 : FVec F S32x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x64 .f32 := Host.absf main_arg10
  let main_cst_18 : FVec F S_ .f32 := constant S_ .f32 0x7F800000#32
  let main_v50 : FVec F S32x64 .f32 := broadcastInDim S32x64 ![] bcast_S_S32x64 main_cst_18
  fn_part3 (F := F) main_arg11 main_arg12 main_arg13 main_arg14 main_arg15 main_arg16 main_arg17 main_v48 main_v49 main_v50

def fn_part1 {F : FTy → Type} [FloatOps F] (main_arg4 : FVec F S32 .f32) (main_arg5 : FVec F S32 .f32) (main_arg6 : FVec F S32 .f32) (main_arg7 : FVec F S32 .f32) (main_arg8 : FVec F S32x32 .f32) (main_arg9 : FVec F S32 .f32) (main_arg10 : FVec F S32x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S1600000 .f32) (main_arg2 : FVec F S128x32 .f32) (main_arg3 : FVec F S32 .f32) (main_arg4 : FVec F S32 .f32) (main_arg5 : FVec F S32 .f32) (main_arg6 : FVec F S32 .f32) (main_arg7 : FVec F S32 .f32) (main_arg8 : FVec F S32x32 .f32) (main_arg9 : FVec F S32 .f32) (main_arg10 : FVec F S32x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x32 : Shape := ⟨2, ![1, 32]⟩
abbrev S100000x32 : Shape := ⟨2, ![100000, 32]⟩
abbrev S5000x128 : Shape := ⟨2, ![5000, 128]⟩
abbrev S5000x32 : Shape := ⟨2, ![5000, 32]⟩
abbrev S1600000x32 : Shape := ⟨2, ![1600000, 32]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 69
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S2x1600000, .i32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x32, .f32⟩
  | .hbm, ⟨40, _⟩ => ⟨S1x32, .f32⟩
  | .hbm, ⟨41, _⟩ => ⟨S1x32, .f32⟩
  | .hbm, ⟨42, _⟩ => ⟨S1x32, .f32⟩
  | .hbm, ⟨43, _⟩ => ⟨S1x32, .f32⟩
  | .hbm, ⟨44, _⟩ => ⟨S1x32, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S1600000x1, .f32⟩
  | .hbm, ⟨56, _⟩ => ⟨S1600000x32, .f32⟩
  | .hbm, ⟨57, _⟩ => ⟨S1600000x32, .f32⟩
  | .hbm, ⟨58, _⟩ => ⟨S_, .f32⟩
  | .hbm, ⟨59, _⟩ => ⟨S100000x32, .f32⟩
  | .hbm, ⟨60, _⟩ => ⟨S1600000x1, .i32⟩
  | .hbm, ⟨61, _⟩ => ⟨S100000x32, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S32x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S64_S1x64 : S64.ShapeCasts S1x64
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x32.size a ≤ S100000x32.size a
  hwx0_10 : ∀ i : grid0.Coords, EltTy.bits .f32 = 32 ∨ (Rect.block (s := S100000x32) S5000x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S5000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v23) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v43) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S2x1600000, .i32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S32, .f32⟩
  | .hbm, ⟨51, _⟩ => ⟨S1x32, .f32⟩
  | .hbm, ⟨52, _⟩ => ⟨S100000x32, .f32⟩
  | .hbm, ⟨53, _⟩ => ⟨S100000x32, .f32⟩
  | .hbm, ⟨54, _⟩ => ⟨S1x32, .f32⟩
  | .hbm, ⟨55, _⟩ => ⟨S100000x32, .f32⟩
  | .hbm, ⟨56, _⟩ => ⟨S100000x32, .f32⟩
  | .hbm, ⟨57, _⟩ => ⟨S1x32, .f32⟩
  | .hbm, ⟨58, _⟩ => ⟨S100000x32, .f32⟩
  | .hbm, ⟨59, _⟩ => ⟨S100000x32, .f32⟩
  | .hbm, ⟨60, _⟩ => ⟨S_, .f32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S1x1600000, .i32⟩
  | .hbm, ⟨71, _⟩ => ⟨S1600000, .i32⟩
  | .hbm, ⟨72, _⟩ => ⟨S1x1600000, .i32⟩
  | .hbm, ⟨73, _⟩ => ⟨S1600000, .i32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x32, .f32⟩
  | .hbm, ⟨83, _⟩ => ⟨S1600000x1, .f32⟩
  | .hbm, ⟨84, _⟩ => ⟨S1600000x32, .f32⟩
  | .hbm, ⟨85, _⟩ => ⟨S1600000x32, .f32⟩
  | .hbm, ⟨86, _⟩ => ⟨S_, .f32⟩
  | .hbm, ⟨87, _⟩ => ⟨S100000x32, .f32⟩
  | .hbm, ⟨88, _⟩ => ⟨S1600000x1, .i32⟩
  | .hbm, ⟨89, _⟩ => ⟨S100000x32, .f32⟩
  | .hbm, ⟨90, _⟩ => ⟨S100000x32, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call0_cst : Ref sig .tc := ⟨.hbm, 60, rfl⟩
abbrev main_call0_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_cst : Ref sig .tc := ⟨.hbm, 67, rfl⟩
abbrev main_call1_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_2 : Ref sig .tc := ⟨.hbm, 74, rfl⟩
abbrev main_v47 : Ref sig .tc := ⟨.hbm, 75, rfl⟩
abbrev main_v48 : Ref sig .tc := ⟨.hbm, 76, rfl⟩
abbrev main_c_3 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_4 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_5 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S_S100000x32 : S_.BroadcastsInDim S100000x32 (![] : Fin 0 → Fin S100000x32.rank)
  bcast_S1600000x1_S1600000x32_0_1 : S1600000x1.BroadcastsInDim S1600000x32 (![0, 1] : Fin 2 → Fin S1600000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.MlpSpec.lean ====
/-
  One graph-isomorphism layer's perceptron, one entry at a time, on the extended reals.

  A row h of K features goes through a linear map into H hidden units, an affine normalisation of each hidden unit by
  running statistics (subtract the mean, scale by the reciprocal square root of the variance plus a fixed small
  constant, scale by gamma, shift by beta), a rectifier, and a second linear map into N outputs:

    hidden k = max (((Σ_j h j · Wa j k) + ba k − mean k) · rsqrt (var k + ε) · gamma k + beta k) 0
    output q = (Σ_k hidden k · Wb k q) + bb q

  Both programs compute exactly these sums; nothing is rearranged, so no law of arithmetic is needed to join them.
-/
import Idealize.ShloMosaic.PureOps.Ideal

noncomputable section

open scoped BigOperators

namespace Cert.MlpSpec

open Idealize.ShloMosaic

/-- The small constant added to a variance before the reciprocal square root: the f32 word both programs spell. -/
abbrev eps : EReal := Ideal.ofBits .f32 0x3727C5AC#32
/-- The rectifier's floor: the f32 zero word, kept as the word both programs spell. -/
abbrev floor0 : EReal := Ideal.ofBits .f32 0x00000000#32

/-- One hidden unit of a row: linear map, normalisation by running statistics, rectifier. -/
def hiddenUnit {K H : ℕ} (h : Fin K → EReal) (Wa : Fin K → Fin H → EReal) (ba mean var gamma beta : Fin H → EReal) (k : Fin H) : EReal :=
  max (((∑ j : Fin K, h j * Wa j k) + ba k - mean k) * Ideal.rsqrt (var k + eps) * gamma k + beta k) floor0

/-- One output of a row: the second linear map over the hidden units. -/
def outputUnit {K H N : ℕ} (h : Fin K → EReal) (Wa : Fin K → Fin H → EReal) (ba mean var gamma beta : Fin H → EReal)
    (Wb : Fin H → Fin N → EReal) (bb : Fin N → EReal) (q : Fin N) : EReal :=
  (∑ k : Fin H, hiddenUnit h Wa ba mean var gamma beta k * Wb k q) + bb q

end Cert.MlpSpec

end
-- ==== Proof.Block0.lean ====
/-
  The first perceptron's body on one block of 5000 rows, read at an entry: with the block of features x, the block of
  aggregated neighbours a, and the layer's parameters, entry (p, q) of what the body stores is the rectified output q
  of row p of x + a.
-/
import proofs.«118283_j42872363549081_1_alg».proof.Proof.Gen.KernelIdeal.Skeleton
import proofs.«118283_j42872363549081_1_alg».proof.Proof.LibDense
import proofs.«118283_j42872363549081_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block0

open Cert.KernelIdeal Cert.KernelIdeal.Gen Idealize.ShloMosaic Idealize.ShloMosaic.ValueIdx Cert.MlpSpec

theorem body_apply (x0 x1 : Vec Ideal S5000x128 .f32) (x2 : Vec Ideal S128x32 .f32) (x3 x4 x5 x6 x7 : Vec Ideal S1x32 .f32)
    (x8 : Vec Ideal S32x32 .f32) (x9 : Vec Ideal S1x32 .f32) (p : Fin 5000) (q : Fin 32) :
    k0_pay1 (F := Ideal) (k0_pay2 (F := Ideal) x0 x1 x2 x3 x6 x7 x4 x5 x8) x9 (ix2 p q)
      = max (outputUnit (fun j : Fin 128 => x0 (ix2 p j) + x1 (ix2 p j)) (fun j k => x2 (ix2 j k))
          (fun k => x3 (ix2 (0 : Fin 1) k)) (fun k => x6 (ix2 (0 : Fin 1) k)) (fun k => x7 (ix2 (0 : Fin 1) k))
          (fun k => x4 (ix2 (0 : Fin 1) k)) (fun k => x5 (ix2 (0 : Fin 1) k))
          (fun k q => x8 (ix2 k q)) (fun q => x9 (ix2 (0 : Fin 1) q)) q) floor0 := by
  unfold k0_pay1 k0_pay2 outputUnit hiddenUnit
  simp only [shapeCast_self, maximumf_apply, addf_apply, subf_apply, mulf_apply, truncf_apply, broadcast_apply,
    broadcastTo_1b_ab_apply, matmul, rsqrt,
    LibDense.matmul_zero_apply dot_S5000x32_S32x32_S5000x32_1_0_0_1_n_n none rfl rfl rfl rfl rfl rfl,
    LibDense.matmul_zero_apply dot_S5000x128_S128x32_S5000x32_1_0_0_1_n_n none rfl rfl rfl rfl rfl rfl,
    Ideal.ofBits_def, Ideal.rsqrt_def]

end Cert.KernelIdeal.Block0

end
-- ==== Proof.Region0.lean ====
/-
  The first perceptron over the whole array of nodes. The launch cuts the 100000 rows into 20 blocks of 5000; grid
  point t reads rows 5000·t … 5000·t + 4999 of the features and of the aggregated neighbours, reads every parameter
  array whole, and writes back the same rows of the result. So the result array is one function of the arrays the launch
  finds: row r of the result is the rectified perceptron of row r of features + neighbours.
-/
import proofs.«118283_j42872363549081_1_alg».proof.Proof.Gen.KernelIdeal.Frame
import proofs.«118283_j42872363549081_1_alg».proof.Proof.Block0

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Cert.MlpSpec
open Idealize.SL.Sem
open Idealize.ShloMosaic.Pipeline (Dat Cfg Window)

variable (V : (c : Dev nD) → (b : Ref sig .tc) → Buf (Elt Ideal) ((c : Thread nD τ).loc b))

/-- The first layer as one function of whole arrays: entry (r, q) is the rectified output q of row r of X + A. The
    parameter vectors arrive as one-row matrices. -/
def layer (X A : S100000x128.Idx → EReal) (Wa : S128x32.Idx → EReal) (ba g be mn vr : S1x32.Idx → EReal)
    (Wb : S32x32.Idx → EReal) (bb : S1x32.Idx → EReal) : S100000x32.Idx → EReal := fun i =>
  max (outputUnit (fun j : Fin 128 => X (ix2 (⟨(i 0).val, idx2_lt0 i⟩ : Fin 100000) j) + A (ix2 (⟨(i 0).val, idx2_lt0 i⟩ : Fin 100000) j))
      (fun j k => Wa (ix2 j k)) (fun k => ba (ix2 (0 : Fin 1) k)) (fun k => mn (ix2 (0 : Fin 1) k)) (fun k => vr (ix2 (0 : Fin 1) k))
      (fun k => g (ix2 (0 : Fin 1) k)) (fun k => be (ix2 (0 : Fin 1) k)) (fun k q => Wb (ix2 k q)) (fun q => bb (ix2 (0 : Fin 1) q))
      (⟨(i 1).val, idx2_lt1 i⟩ : Fin 32)) floor0

theorem hz : (![0, 0] : Fin 2 → Nat) = fun _ => 0 := funext fun a => by fin_cases a <;> rfl

/-- The row-blocked windows (features, neighbours, result) sit at block (t, 0); every parameter window at block (0, 0). -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)
theorem idx_params : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- WHAT POINT t WRITES BACK is block t of the layer's array. -/
theorem flushed_eq (c : Dev nD) (t : Fin cfg0.N) :
    (dat0 V c).flushed 10 t = ((cfg0.win 10).blk t).view.read (Elt Ideal)
      (layer (V c main_arg0) (V c main_v16) (V c main_arg2) (V c main_v17) (V c main_v18) (V c main_v19) (V c main_v20)
        (V c main_v21) (V c main_arg8) (V c main_v22)) := by
  show (cfg0.win 10).cut (grid0.coords t) ((dat0 V c).after 10 t) = _
  rw [after0_10]
  unfold out0_10
  rw [View.canon_unit_zero hz]
  simp only [View.ld_unit_zero (S := S5000x128) hz, View.ld_unit_zero (S := S128x32) hz, View.ld_unit_zero (S := S1x32) hz,
    View.ld_unit_zero (S := S32x32) hz]
  funext y
  obtain ⟨p, q, rfl⟩ : ∃ (p : Fin 5000) (q : Fin 32), y = ix2 p q := ⟨y 0, y 1, eq_ix2 y⟩
  obtain ⟨r0, r0', r1, r1', r10, r10'⟩ := idx_rows t
  obtain ⟨⟨a2, b2⟩, ⟨a3, b3⟩, ⟨a4, b4⟩, ⟨a5, b5⟩, ⟨a6, b6⟩, ⟨a7, b7⟩, ⟨a8, b8⟩, ⟨a9, b9⟩⟩ := idx_params t
  have ht : t.val < 20 := t.isLt
  show k0_pay1 (k0_pay2 (iblk0 V c 0 t) (iblk0 V c 1 t) (iblk0 V c 2 t) (iblk0 V c 3 t) (iblk0 V c 6 t) (iblk0 V c 7 t)
          (iblk0 V c 4 t) (iblk0 V c 5 t) (iblk0 V c 8 t)) (iblk0 V c 9 t) (ix2 p q)
    = layer (V c main_arg0) (V c main_v16) (V c main_arg2) (V c main_v17) (V c main_v18) (V c main_v19) (V c main_v20)
        (V c main_v21) (V c main_arg8) (V c main_v22) (((cfg0.win 10).blk t).view.emb (ix2 p q))
  refine (Block0.body_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) p q).trans ?_
  have hrow : (⟨((((cfg0.win 10).blk t).view.emb (ix2 p q)) 0).val, idx2_lt0 _⟩ : Fin 100000) = ⟨t.val * 5000 + p.val, by omega⟩ :=
    Fin.ext (by show win0_10.index t (0 : Fin 2) * 5000 + 1 * p.val = t.val * 5000 + p.val; rw [r10]; omega)
  have hcol : (⟨((((cfg0.win 10).blk t).view.emb (ix2 p q)) 1).val, idx2_lt1 _⟩ : Fin 32) = q :=
    Fin.ext (by show win0_10.index t (1 : Fin 2) * 32 + 1 * q.val = q.val; rw [r10']; omega)
  have e0 : ∀ j : Fin 128, iblk0 V c 0 t (ix2 p j) = V c main_arg0 (ix2 (⟨t.val * 5000 + p.val, by omega⟩ : Fin 100000) j) := fun j =>
    congrArg (V c main_arg0) (Shape.idx_ext₂
      (by show win0_0.index t (0 : Fin 2) * 5000 + 1 * p.val = t.val * 5000 + p.val; rw [r0]; omega)
      (by show win0_0.index t (1 : Fin 2) * 128 + 1 * j.val = j.val; rw [r0']; omega))
  have e1 : ∀ j : Fin 128, iblk0 V c 1 t (ix2 p j) = V c main_v16 (ix2 (⟨t.val * 5000 + p.val, by omega⟩ : Fin 100000) j) := fun j =>
    congrArg (V c main_v16) (Shape.idx_ext₂
      (by show win0_1.index t (0 : Fin 2) * 5000 + 1 * p.val = t.val * 5000 + p.val; rw [r1]; omega)
      (by show win0_1.index t (1 : Fin 2) * 128 + 1 * j.val = j.val; rw [r1']; omega))
  have e2 : ∀ (j : Fin 128) (k : Fin 32), iblk0 V c 2 t (ix2 j k) = V c main_arg2 (ix2 j k) := fun j k =>
    congrArg (V c main_arg2) (Shape.idx_ext₂
      (by show win0_2.index t (0 : Fin 2) * 128 + 1 * j.val = j.val; rw [a2]; omega)
      (by show win0_2.index t (1 : Fin 2) * 32 + 1 * k.val = k.val; rw [b2]; omega))
  have e3 : ∀ k : Fin 32, iblk0 V c 3 t (ix2 (0 : Fin 1) k) = V c main_v17 (ix2 (0 : Fin 1) k) := fun k =>
    congrArg (V c main_v17) (Shape.idx_ext₂
      (by show win0_3.index t (0 : Fin 2) * 1 + 1 * 0 = 0; rw [a3])
      (by show win0_3.index t (1 : Fin 2) * 32 + 1 * k.val = k.val; rw [b3]; omega))
  have e4 : ∀ k : Fin 32, iblk0 V c 4 t (ix2 (0 : Fin 1) k) = V c main_v18 (ix2 (0 : Fin 1) k) := fun k =>
    congrArg (V c main_v18) (Shape.idx_ext₂
      (by show win0_4.index t (0 : Fin 2) * 1 + 1 * 0 = 0; rw [a4])
      (by show win0_4.index t (1 : Fin 2) * 32 + 1 * k.val = k.val; rw [b4]; omega))
  have e5 : ∀ k : Fin 32, iblk0 V c 5 t (ix2 (0 : Fin 1) k) = V c main_v19 (ix2 (0 : Fin 1) k) := fun k =>
    congrArg (V c main_v19) (Shape.idx_ext₂
      (by show win0_5.index t (0 : Fin 2) * 1 + 1 * 0 = 0; rw [a5])
      (by show win0_5.index t (1 : Fin 2) * 32 + 1 * k.val = k.val; rw [b5]; omega))
  have e6 : ∀ k : Fin 32, iblk0 V c 6 t (ix2 (0 : Fin 1) k) = V c main_v20 (ix2 (0 : Fin 1) k) := fun k =>
    congrArg (V c main_v20) (Shape.idx_ext₂
      (by show win0_6.index t (0 : Fin 2) * 1 + 1 * 0 = 0; rw [a6])
      (by show win0_6.index t (1 : Fin 2) * 32 + 1 * k.val = k.val; rw [b6]; omega))
  have e7 : ∀ k : Fin 32, iblk0 V c 7 t (ix2 (0 : Fin 1) k) = V c main_v21 (ix2 (0 : Fin 1) k) := fun k =>
    congrArg (V c main_v21) (Shape.idx_ext₂
      (by show win0_7.index t (0 : Fin 2) * 1 + 1 * 0 = 0; rw [a7])
      (by show win0_7.index t (1 : Fin 2) * 32 + 1 * k.val = k.val; rw [b7]; omega))
  have e8 : ∀ (k : Fin 32) (q : Fin 32), iblk0 V c 8 t (ix2 k q) = V c main_arg8 (ix2 k q) := fun k q =>
    congrArg (V c main_arg8) (Shape.idx_ext₂
      (by show win0_8.index t (0 : Fin 2) * 32 + 1 * k.val = k.val; rw [a8]; omega)
      (by show win0_8.index t (1 : Fin 2) * 32 + 1 * q.val = q.val; rw [b8]; omega))
  have e9 : ∀ k : Fin 32, iblk0 V c 9 t (ix2 (0 : Fin 1) k) = V c main_v22 (ix2 (0 : Fin 1) k) := fun k =>
    congrArg (V c main_v22) (Shape.idx_ext₂
      (by show win0_9.index t (0 : Fin 2) * 1 + 1 * 0 = 0; rw [a9])
      (by show win0_9.index t (1 : Fin 2) * 32 + 1 * k.val = k.val; rw [b9]; omega))
  unfold layer
  rw [hrow, hcol]
  simp only [e0, e1, e2, e3, e4, e5, e6, e7, e8, e9]

/-- An index of the result array is in point t's block iff each coordinate is in the block's range on its axis. -/
theorem mem_blk (t : Fin cfg0.N) (i : S100000x32.Idx) :
    i ∈ ((cfg0.win 10).blk t).view.set ↔ ∀ a : Fin 2, win0_10.index t a * S5000x32.size a ≤ (i a).val ∧ (i a).val < win0_10.index t a * S5000x32.size a + S5000x32.size a := by
  show i ∈ ((View.whole main_v23).slice (win0_10.rect t)).set ↔ _
  rw [View.set_slice_whole, Rect.mem_set_unit]
  exact Iff.rfl

/-- Every row lies in the block of the point its number divided by 5000 names. -/
theorem cover (i : S100000x32.Idx) : ∃ t : Fin cfg0.N, (cfg0.win 10).flush t = true ∧ i ∈ ((cfg0.win 10).blk t).view.set := by
  have hi0 : (i 0).val < 100000 := idx2_lt0 i
  have hi1 : (i 1).val < 32 := idx2_lt1 i
  refine ⟨⟨(i 0).val / 5000, by show (i 0).val / 5000 < 20; omega⟩, flush0_10 _, ?_⟩
  rw [mem_blk]
  obtain ⟨-, -, -, -, r10, r10'⟩ := idx_rows ⟨(i 0).val / 5000, by show (i 0).val / 5000 < 20; omega⟩
  intro a
  match a with
  | ⟨0, _⟩ =>
    show win0_10.index _ (0 : Fin 2) * 5000 ≤ (i 0).val ∧ (i 0).val < win0_10.index _ (0 : Fin 2) * 5000 + 5000
    rw [r10]; show (i 0).val / 5000 * 5000 ≤ (i 0).val ∧ (i 0).val < (i 0).val / 5000 * 5000 + 5000; omega
  | ⟨1, _⟩ =>
    show win0_10.index _ (1 : Fin 2) * 32 ≤ (i 1).val ∧ (i 1).val < win0_10.index _ (1 : Fin 2) * 32 + 32
    rw [r10']; omega

/-- THE RESULT ARRAY of the first launch, whatever contents V the launch is entered with. -/
theorem final (c : Dev nD) : (dat0 V c).arrAt 10 cfg0.N
    = layer (V c main_arg0) (V c main_v16) (V c main_arg2) (V c main_v17) (V c main_v18) (V c main_v19) (V c main_v20)
        (V c main_v21) (V c main_arg8) (V c main_v22) :=
  (dat0 V c).arrAt_eq_of_cover 10 _ (fun t _ => flushed_eq V c t) cover

end Cert.KernelIdeal.Region0

end
-- ==== Proof.Block1.lean ====
/-
  The second perceptron's body on one block of 5000 rows, read at an entry: entry (p, q) of what the body stores is
  output q of row p of the block of features plus the block of aggregated neighbours (no rectifier after this one).
-/
import proofs.«118283_j42872363549081_1_alg».proof.Proof.Gen.KernelIdeal.Skeleton
import proofs.«118283_j42872363549081_1_alg».proof.Proof.LibDense
import proofs.«118283_j42872363549081_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block1

open Cert.KernelIdeal Cert.KernelIdeal.Gen Idealize.ShloMosaic Idealize.ShloMosaic.ValueIdx Cert.MlpSpec

theorem body_apply (x0 x1 : Vec Ideal S5000x32 .f32) (x2 : Vec Ideal S32x64 .f32) (x3 x4 x5 x6 x7 : Vec Ideal S1x64 .f32)
    (x8 : Vec Ideal S64x64 .f32) (x9 : Vec Ideal S1x64 .f32) (p : Fin 5000) (q : Fin 64) :
    k1_pay1 (F := Ideal) (k1_pay2 (F := Ideal) x0 x1 x2 x3 x6 x7 x4 x5) (k1_pay3 (F := Ideal) x8)
        (constant S5000x64 .f32 0x00000000#32) x9 (ix2 p q)
      = outputUnit (fun j : Fin 32 => x0 (ix2 p j) + x1 (ix2 p j)) (fun j k => x2 (ix2 j k))
          (fun k => x3 (ix2 (0 : Fin 1) k)) (fun k => x6 (ix2 (0 : Fin 1) k)) (fun k => x7 (ix2 (0 : Fin 1) k))
          (fun k => x4 (ix2 (0 : Fin 1) k)) (fun k => x5 (ix2 (0 : Fin 1) k))
          (fun k q => x8 (ix2 k q)) (fun q => x9 (ix2 (0 : Fin 1) q)) q := by
  unfold k1_pay1 k1_pay2 k1_pay3 outputUnit hiddenUnit
  simp only [shapeCast_self, maximumf_apply, addf_apply, subf_apply, mulf_apply, truncf_apply, broadcast_apply,
    broadcastTo_1b_ab_apply, matmul, rsqrt,
    LibDense.matmul_zero_apply dot_S5000x64_S64x64_S5000x64_1_0_0_1_n_n none rfl rfl rfl rfl rfl rfl,
    LibDense.matmul_zero_apply dot_S5000x32_S32x64_S5000x64_1_0_0_1_n_n none rfl rfl rfl rfl rfl rfl,
    Ideal.ofBits_def, Ideal.rsqrt_def]

end Cert.KernelIdeal.Block1

end
-- ==== Proof.Region1.lean ====
/-
  The second perceptron over the whole array of nodes. As in the first launch the 100000 rows are cut into 20 blocks
  of 5000: grid point t reads rows 5000·t … 5000·t + 4999 of the hidden features and of their aggregated neighbours,
  reads every parameter array whole, and writes back the same rows of the result. Row r of the result array is the
  perceptron (32 → 64 → 64, no rectifier at the end) of row r of features + neighbours.
-/
import proofs.«118283_j42872363549081_1_alg».proof.Proof.Gen.KernelIdeal.Frame
import proofs.«118283_j42872363549081_1_alg».proof.Proof.Block1

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Cert.MlpSpec
open Idealize.SL.Sem
open Idealize.ShloMosaic.Pipeline (Dat Cfg Window)

variable (V : (c : Dev nD) → (b : Ref sig .tc) → Buf (Elt Ideal) ((c : Thread nD τ).loc b))

/-- The second layer as one function of whole arrays: entry (r, q) is output q of row r of X + A. The parameter
    vectors arrive as one-row matrices. -/
def layer (X A : S100000x32.Idx → EReal) (Wa : S32x64.Idx → EReal) (ba g be mn vr : S1x64.Idx → EReal)
    (Wb : S64x64.Idx → EReal) (bb : S1x64.Idx → EReal) : S100000x64.Idx → EReal := fun i =>
  outputUnit (fun j : Fin 32 => X (ix2 (⟨(i 0).val, idx2_lt0 i⟩ : Fin 100000) j) + A (ix2 (⟨(i 0).val, idx2_lt0 i⟩ : Fin 100000) j))
    (fun j k => Wa (ix2 j k)) (fun k => ba (ix2 (0 : Fin 1) k)) (fun k => mn (ix2 (0 : Fin 1) k)) (fun k => vr (ix2 (0 : Fin 1) k))
    (fun k => g (ix2 (0 : Fin 1) k)) (fun k => be (ix2 (0 : Fin 1) k)) (fun k q => Wb (ix2 k q)) (fun q => bb (ix2 (0 : Fin 1) q))
    (⟨(i 1).val, idx2_lt1 i⟩ : Fin 64)

theorem hz : (![0, 0] : Fin 2 → Nat) = fun _ => 0 := funext fun a => by fin_cases a <;> rfl

/-- The row-blocked windows (features, neighbours, result) sit at block (t, 0); every parameter window at block (0, 0). -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_10.index t (0 : Fin 2) = t.val ∧ win1_10.index t (1 : Fin 2) = 0 :=
  (by decide +kernel : ∀ t : Fin grid1.N, _)
theorem idx_params : ∀ t : Fin cfg1.N, (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

set_option maxHeartbeats 1600000 in
/-- WHAT POINT t WRITES BACK is block t of the layer's array. -/
theorem flushed_eq (c : Dev nD) (t : Fin cfg1.N) :
    (dat1 V c).flushed 10 t = ((cfg1.win 10).blk t).view.read (Elt Ideal)
      (layer (V c main_v23) (V c main_v36) (V c main_arg10) (V c main_v37) (V c main_v38) (V c main_v39) (V c main_v40)
        (V c main_v41) (V c main_arg16) (V c main_v42)) := by
  show (cfg1.win 10).cut (grid1.coords t) ((dat1 V c).after 10 t) = _
  rw [after1_10]
  unfold out1_10
  rw [View.canon_unit_zero hz]
  simp only [View.ld_unit_zero (S := S5000x32) hz, View.ld_unit_zero (S := S32x64) hz, View.ld_unit_zero (S := S1x64) hz,
    View.ld_unit_zero (S := S64x64) hz]
  funext y
  obtain ⟨p, q, rfl⟩ : ∃ (p : Fin 5000) (q : Fin 64), y = ix2 p q := ⟨y 0, y 1, eq_ix2 y⟩
  obtain ⟨r0, r0', r1, r1', r10, r10'⟩ := idx_rows t
  obtain ⟨⟨a2, b2⟩, ⟨a3, b3⟩, ⟨a4, b4⟩, ⟨a5, b5⟩, ⟨a6, b6⟩, ⟨a7, b7⟩, ⟨a8, b8⟩, ⟨a9, b9⟩⟩ := idx_params t
  have ht : t.val < 20 := t.isLt
  show k1_pay1 (k1_pay2 (iblk1 V c 0 t) (iblk1 V c 1 t) (iblk1 V c 2 t) (iblk1 V c 3 t) (iblk1 V c 6 t) (iblk1 V c 7 t)
          (iblk1 V c 4 t) (iblk1 V c 5 t)) (k1_pay3 (iblk1 V c 8 t)) (constant S5000x64 .f32 0x00000000#32) (iblk1 V c 9 t) (ix2 p q)
    = layer (V c main_v23) (V c main_v36) (V c main_arg10) (V c main_v37) (V c main_v38) (V c main_v39) (V c main_v40)
        (V c main_v41) (V c main_arg16) (V c main_v42) (((cfg1.win 10).blk t).view.emb (ix2 p q))
  refine (Block1.body_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) p q).trans ?_
  have hrow : (⟨((((cfg1.win 10).blk t).view.emb (ix2 p q)) 0).val, idx2_lt0 _⟩ : Fin 100000) = ⟨t.val * 5000 + p.val, by omega⟩ :=
    Fin.ext (by show win1_10.index t (0 : Fin 2) * 5000 + 1 * p.val = t.val * 5000 + p.val; rw [r10]; omega)
  have hcol : (⟨((((cfg1.win 10).blk t).view.emb (ix2 p q)) 1).val, idx2_lt1 _⟩ : Fin 64) = q :=
    Fin.ext (by show win1_10.index t (1 : Fin 2) * 64 + 1 * q.val = q.val; rw [r10']; omega)
  have e0 : ∀ j : Fin 32, iblk1 V c 0 t (ix2 p j) = V c main_v23 (ix2 (⟨t.val * 5000 + p.val, by omega⟩ : Fin 100000) j) := fun j =>
    congrArg (V c main_v23) (Shape.idx_ext₂
      (by show win1_0.index t (0 : Fin 2) * 5000 + 1 * p.val = t.val * 5000 + p.val; rw [r0]; omega)
      (by show win1_0.index t (1 : Fin 2) * 32 + 1 * j.val = j.val; rw [r0']; omega))
  have e1 : ∀ j : Fin 32, iblk1 V c 1 t (ix2 p j) = V c main_v36 (ix2 (⟨t.val * 5000 + p.val, by omega⟩ : Fin 100000) j) := fun j =>
    congrArg (V c main_v36) (Shape.idx_ext₂
      (by show win1_1.index t (0 : Fin 2) * 5000 + 1 * p.val = t.val * 5000 + p.val; rw [r1]; omega)
      (by show win1_1.index t (1 : Fin 2) * 32 + 1 * j.val = j.val; rw [r1']; omega))
  have e2 : ∀ (j : Fin 32) (k : Fin 64), iblk1 V c 2 t (ix2 j k) = V c main_arg10 (ix2 j k) := fun j k =>
    congrArg (V c main_arg10) (Shape.idx_ext₂
      (by show win1_2.index t (0 : Fin 2) * 32 + 1 * j.val = j.val; rw [a2]; omega)
      (by show win1_2.index t (1 : Fin 2) * 64 + 1 * k.val = k.val; rw [b2]; omega))
  have e3 : ∀ k : Fin 64, iblk1 V c 3 t (ix2 (0 : Fin 1) k) = V c main_v37 (ix2 (0 : Fin 1) k) := fun k =>
    congrArg (V c main_v37) (Shape.idx_ext₂
      (by show win1_3.index t (0 : Fin 2) * 1 + 1 * 0 = 0; rw [a3])
      (by show win1_3.index t (1 : Fin 2) * 64 + 1 * k.val = k.val; rw [b3]; omega))
  have e4 : ∀ k : Fin 64, iblk1 V c 4 t (ix2 (0 : Fin 1) k) = V c main_v38 (ix2 (0 : Fin 1) k) := fun k =>
    congrArg (V c main_v38) (Shape.idx_ext₂
      (by show win1_4.index t (0 : Fin 2) * 1 + 1 * 0 = 0; rw [a4])
      (by show win1_4.index t (1 : Fin 2) * 64 + 1 * k.val = k.val; rw [b4]; omega))
  have e5 : ∀ k : Fin 64, iblk1 V c 5 t (ix2 (0 : Fin 1) k) = V c main_v39 (ix2 (0 : Fin 1) k) := fun k =>
    congrArg (V c main_v39) (Shape.idx_ext₂
      (by show win1_5.index t (0 : Fin 2) * 1 + 1 * 0 = 0; rw [a5])
      (by show win1_5.index t (1 : Fin 2) * 64 + 1 * k.val = k.val; rw [b5]; omega))
  have e6 : ∀ k : Fin 64, iblk1 V c 6 t (ix2 (0 : Fin 1) k) = V c main_v40 (ix2 (0 : Fin 1) k) := fun k =>
    congrArg (V c main_v40) (Shape.idx_ext₂
      (by show win1_6.index t (0 : Fin 2) * 1 + 1 * 0 = 0; rw [a6])
      (by show win1_6.index t (1 : Fin 2) * 64 + 1 * k.val = k.val; rw [b6]; omega))
  have e7 : ∀ k : Fin 64, iblk1 V c 7 t (ix2 (0 : Fin 1) k) = V c main_v41 (ix2 (0 : Fin 1) k) := fun k =>
    congrArg (V c main_v41) (Shape.idx_ext₂
      (by show win1_7.index t (0 : Fin 2) * 1 + 1 * 0 = 0; rw [a7])
      (by show win1_7.index t (1 : Fin 2) * 64 + 1 * k.val = k.val; rw [b7]; omega))
  have e8 : ∀ (k : Fin 64) (q : Fin 64), iblk1 V c 8 t (ix2 k q) = V c main_arg16 (ix2 k q) := fun k q =>
    congrArg (V c main_arg16) (Shape.idx_ext₂
      (by show win1_8.index t (0 : Fin 2) * 64 + 1 * k.val = k.val; rw [a8]; omega)
      (by show win1_8.index t (1 : Fin 2) * 64 + 1 * q.val = q.val; rw [b8]; omega))
  have e9 : ∀ k : Fin 64, iblk1 V c 9 t (ix2 (0 : Fin 1) k) = V c main_v42 (ix2 (0 : Fin 1) k) := fun k =>
    congrArg (V c main_v42) (Shape.idx_ext₂
      (by show win1_9.index t (0 : Fin 2) * 1 + 1 * 0 = 0; rw [a9])
      (by show win1_9.index t (1 : Fin 2) * 64 + 1 * k.val = k.val; rw [b9]; omega))
  unfold layer
  rw [hrow, hcol]
  simp only [e0, e1, e2, e3, e4, e5, e6, e7, e8, e9]

/-- An index of the result array is in point t's block iff each coordinate is in the block's range on its axis. -/
theorem mem_blk (t : Fin cfg1.N) (i : S100000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v43).slice (win1_10.rect t)).set ↔ _
  rw [View.set_slice_whole, Rect.mem_set_unit]
  exact Iff.rfl

/-- Every row lies in the block of the point its number divided by 5000 names. -/
theorem cover (i : S100000x64.Idx) : ∃ t : Fin cfg1.N, (cfg1.win 10).flush t = true ∧ i ∈ ((cfg1.win 10).blk t).view.set := by
  have hi0 : (i 0).val < 100000 := idx2_lt0 i
  have hi1 : (i 1).val < 64 := idx2_lt1 i
  refine ⟨⟨(i 0).val / 5000, by show (i 0).val / 5000 < 20; omega⟩, flush1_10 _, ?_⟩
  rw [mem_blk]
  obtain ⟨-, -, -, -, r10, r10'⟩ := idx_rows ⟨(i 0).val / 5000, by show (i 0).val / 5000 < 20; omega⟩
  intro a
  match a with
  | ⟨0, _⟩ =>
    show win1_10.index _ (0 : Fin 2) * 5000 ≤ (i 0).val ∧ (i 0).val < win1_10.index _ (0 : Fin 2) * 5000 + 5000
    rw [r10]; show (i 0).val / 5000 * 5000 ≤ (i 0).val ∧ (i 0).val < (i 0).val / 5000 * 5000 + 5000; omega
  | ⟨1, _⟩ =>
    show win1_10.index _ (1 : Fin 2) * 64 ≤ (i 1).val ∧ (i 1).val < win1_10.index _ (1 : Fin 2) * 64 + 64
    rw [r10']; omega

/-- THE RESULT ARRAY of the second launch, whatever contents V the launch is entered with. -/
theorem final (c : Dev nD) : (dat1 V c).arrAt 10 cfg1.N
    = layer (V c main_v23) (V c main_v36) (V c main_arg10) (V c main_v37) (V c main_v38) (V c main_v39) (V c main_v40)
        (V c main_v41) (V c main_arg16) (V c main_v42) :=
  (dat1 V c).arrAt_eq_of_cover 10 _ (fun t _ => flushed_eq V c t) cover

end Cert.KernelIdeal.Region1

end
-- ==== Proof.AggK.lean ====
/-
  The neighbour aggregation of the kernel's program, as its host operations print it: gather the source node's row for
  every edge, scale it by the edge's weight, add it into the destination node's row of a zero matrix. Source and
  destination are rows 0 and 1 of the edge-index matrix; a negative source index is wrapped once by the number of
  nodes before the gather, as jnp indexing does. The two programs apply these same operations to the same operands, so
  the aggregation is carried as one function and never opened.
-/
import proofs.«118283_j42872363549081_1_alg».proof.Proof.Gen.KernelIdeal
import Idealize.ShloMosaic.PureOps.Ideal

noncomputable section

namespace Cert.KernelIdeal.Agg

open Cert.KernelIdeal Cert.KernelIdeal.Gen Idealize.ShloMosaic

/-- Row 0 of the edge-index matrix: each edge's source node. -/
def src (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- Row 1 of the edge-index matrix: each edge's destination node. -/
def dst (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- Weighted neighbour sums of a 128-feature array. -/
def agg128 (x : FVec Ideal S100000x128 .f32) (s d : (⟨S1600000, .i32⟩ : BufTy).Contents (Elt Ideal)) (w : FVec Ideal S1600000 .f32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf
      (Host.gather gather_S100000x128_S1600000x1_S1600000x128_1_0_n_n_0_1_1128 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      (broadcastInDim S1600000x128 ![0, 1] bcast_S1600000x1_S1600000x128_0_1
        (broadcastInDim S1600000x1 ![0] bcast_S1600000_S1600000x1_0 w)))

/-- Weighted neighbour sums of a 32-feature array. -/
def agg32 (x : FVec Ideal S100000x32 .f32) (s d : (⟨S1600000, .i32⟩ : BufTy).Contents (Elt Ideal)) (w : FVec Ideal S1600000 .f32) :
    FVec Ideal S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (mulf
      (Host.gather gather_S100000x32_S1600000x1_S1600000x32_1_0_n_n_0_1_132 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      (broadcastInDim S1600000x32 ![0, 1] bcast_S1600000x1_S1600000x32_0_1
        (broadcastInDim S1600000x1 ![0] bcast_S1600000_S1600000x1_0 w)))

end Cert.KernelIdeal.Agg

end
-- ==== Proof.Glue0.lean ====
/-
  The host operations around the two launches, read back.

  Before the first launch the host slices the edge-index matrix into sources and destinations, aggregates the
  neighbours of the input features, and reshapes each parameter vector of the first layer into a one-row matrix.
  Between the launches it aggregates the neighbours of the first launch's result and reshapes the second layer's
  parameter vectors. Each buffer a launch reads is named here as a function of the argument arrays (and, between the
  launches, of the first launch's result).
-/
import proofs.«118283_j42872363549081_1_alg».proof.Proof.Gen.KernelIdeal.Frame
import proofs.«118283_j42872363549081_1_alg».proof.Proof.AggK
import Idealize.ShloMosaic.Lib.StableHlo.Run
import Idealize.ShloMosaic.PureOps.Ideal

set_option maxRecDepth 16384

noncomputable section

namespace Cert.KernelIdeal.Glue

open Cert.KernelIdeal Cert.KernelIdeal.Gen Cert.KernelIdeal.Agg
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first launch -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg1 : W1 m ρ c (Proc.devRef .tc main_arg1) = m ((c : Thread nD τ).loc main_arg1) := by
  show StableHlo.after hostOps0 (W0 m ρ c) (Proc.devRef .tc main_arg1) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg8 : W1 m ρ c (Proc.devRef .tc main_arg8) = m ((c : Thread nD τ).loc main_arg8) := by
  show StableHlo.after hostOps0 (W0 m ρ c) (Proc.devRef .tc main_arg8) = _
  after_results_simp <;> rfl
theorem W1_v1 : W1 m ρ c (Proc.devRef .tc main_v1) = src (m ((c : Thread nD τ).loc main_arg18)) := by
  show StableHlo.after hostOps0 (W0 m ρ c) (Proc.devRef .tc main_v1) = _
  after_results_simp <;> rfl
theorem W1_v3 : W1 m ρ c (Proc.devRef .tc main_v3) = dst (m ((c : Thread nD τ).loc main_arg18)) := by
  show StableHlo.after hostOps0 (W0 m ρ c) (Proc.devRef .tc main_v3) = _
  after_results_simp <;> rfl
set_option maxHeartbeats 4000000 in
theorem W1_v16 : W1 m ρ c (Proc.devRef .tc main_v16)
    = agg128 (m ((c : Thread nD τ).loc main_arg0)) (src (m ((c : Thread nD τ).loc main_arg18)))
        (dst (m ((c : Thread nD τ).loc main_arg18))) (m ((c : Thread nD τ).loc main_arg1)) := by
  show StableHlo.after hostOps0 (W0 m ρ c) (Proc.devRef .tc main_v16) = _
  after_results_simp <;> rfl
theorem W1_v17 : W1 m ρ c (Proc.devRef .tc main_v17) = shapeCast S1x32 (m ((c : Thread nD τ).loc main_arg3)) shapeCasts_S32_S1x32 := by
  show StableHlo.after hostOps0 (W0 m ρ c) (Proc.devRef .tc main_v17) = _
  after_results_simp <;> rfl
theorem W1_v18 : W1 m ρ c (Proc.devRef .tc main_v18) = shapeCast S1x32 (m ((c : Thread nD τ).loc main_arg4)) shapeCasts_S32_S1x32 := by
  show StableHlo.after hostOps0 (W0 m ρ c) (Proc.devRef .tc main_v18) = _
  after_results_simp <;> rfl
theorem W1_v19 : W1 m ρ c (Proc.devRef .tc main_v19) = shapeCast S1x32 (m ((c : Thread nD τ).loc main_arg5)) shapeCasts_S32_S1x32 := by
  show StableHlo.after hostOps0 (W0 m ρ c) (Proc.devRef .tc main_v19) = _
  after_results_simp <;> rfl
theorem W1_v20 : W1 m ρ c (Proc.devRef .tc main_v20) = shapeCast S1x32 (m ((c : Thread nD τ).loc main_arg6)) shapeCasts_S32_S1x32 := by
  show StableHlo.after hostOps0 (W0 m ρ c) (Proc.devRef .tc main_v20) = _
  after_results_simp <;> rfl
theorem W1_v21 : W1 m ρ c (Proc.devRef .tc main_v21) = shapeCast S1x32 (m ((c : Thread nD τ).loc main_arg7)) shapeCasts_S32_S1x32 := by
  show StableHlo.after hostOps0 (W0 m ρ c) (Proc.devRef .tc main_v21) = _
  after_results_simp <;> rfl
theorem W1_v22 : W1 m ρ c (Proc.devRef .tc main_v22) = shapeCast S1x32 (m ((c : Thread nD τ).loc main_arg9)) shapeCasts_S32_S1x32 := by
  show StableHlo.after hostOps0 (W0 m ρ c) (Proc.devRef .tc main_v22) = _
  after_results_simp <;> rfl

end Cert.KernelIdeal.Glue

end
-- ==== Proof.Glue1.lean ====
/-
  The host operations between the two launches, read back: each buffer the second launch reads, as a function of the
  contents the first launch leaves. The second layer's parameter arrays pass through both stretches of host
  operations and the first launch untouched.
-/
import proofs.«118283_j42872363549081_1_alg».proof.Proof.Gen.KernelIdeal.Frame
import proofs.«118283_j42872363549081_1_alg».proof.Proof.AggK
import Idealize.ShloMosaic.Lib.StableHlo.Run
import Idealize.ShloMosaic.PureOps.Ideal

set_option maxRecDepth 16384

noncomputable section

namespace Cert.KernelIdeal.Glue

open Cert.KernelIdeal Cert.KernelIdeal.Gen Cert.KernelIdeal.Agg
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The second layer's parameters before the first launch: as launched -/

theorem W1_arg10 : W1 m ρ c (Proc.devRef .tc main_arg10) = m ((c : Thread nD τ).loc main_arg10) := by
  show StableHlo.after hostOps0 (W0 m ρ c) (Proc.devRef .tc main_arg10) = _
  after_results_simp <;> rfl
theorem W1_arg11 : W1 m ρ c (Proc.devRef .tc main_arg11) = m ((c : Thread nD τ).loc main_arg11) := by
  show StableHlo.after hostOps0 (W0 m ρ c) (Proc.devRef .tc main_arg11) = _
  after_results_simp <;> rfl
theorem W1_arg12 : W1 m ρ c (Proc.devRef .tc main_arg12) = m ((c : Thread nD τ).loc main_arg12) := by
  show StableHlo.after hostOps0 (W0 m ρ c) (Proc.devRef .tc main_arg12) = _
  after_results_simp <;> rfl
theorem W1_arg13 : W1 m ρ c (Proc.devRef .tc main_arg13) = m ((c : Thread nD τ).loc main_arg13) := by
  show StableHlo.after hostOps0 (W0 m ρ c) (Proc.devRef .tc main_arg13) = _
  after_results_simp <;> rfl
theorem W1_arg14 : W1 m ρ c (Proc.devRef .tc main_arg14) = m ((c : Thread nD τ).loc main_arg14) := by
  show StableHlo.after hostOps0 (W0 m ρ c) (Proc.devRef .tc main_arg14) = _
  after_results_simp <;> rfl
theorem W1_arg15 : W1 m ρ c (Proc.devRef .tc main_arg15) = m ((c : Thread nD τ).loc main_arg15) := by
  show StableHlo.after hostOps0 (W0 m ρ c) (Proc.devRef .tc main_arg15) = _
  after_results_simp <;> rfl
theorem W1_arg16 : W1 m ρ c (Proc.devRef .tc main_arg16) = m ((c : Thread nD τ).loc main_arg16) := by
  show StableHlo.after hostOps0 (W0 m ρ c) (Proc.devRef .tc main_arg16) = _
  after_results_simp <;> rfl
theorem W1_arg17 : W1 m ρ c (Proc.devRef .tc main_arg17) = m ((c : Thread nD τ).loc main_arg17) := by
  show StableHlo.after hostOps0 (W0 m ρ c) (Proc.devRef .tc main_arg17) = _
  after_results_simp <;> rfl

/-! ## Between the launches, over the contents W2 the first launch leaves -/

theorem W3_v23 : W3 m ρ c (Proc.devRef .tc main_v23) = W2 m ρ c (Proc.devRef .tc main_v23) := by
  show StableHlo.after hostOps1 (W2 m ρ c) (Proc.devRef .tc main_v23) = _
  after_results_simp <;> rfl
set_option maxHeartbeats 4000000 in
theorem W3_v36 : W3 m ρ c (Proc.devRef .tc main_v36)
    = agg32 (W2 m ρ c (Proc.devRef .tc main_v23)) (W2 m ρ c (Proc.devRef .tc main_v1)) (W2 m ρ c (Proc.devRef .tc main_v3))
        (W2 m ρ c (Proc.devRef .tc main_arg1)) := by
  show StableHlo.after hostOps1 (W2 m ρ c) (Proc.devRef .tc main_v36) = _
  after_results_simp <;> rfl
theorem W3_arg10 : W3 m ρ c (Proc.devRef .tc main_arg10) = W2 m ρ c (Proc.devRef .tc main_arg10) := by
  show StableHlo.after hostOps1 (W2 m ρ c) (Proc.devRef .tc main_arg10) = _
  after_results_simp <;> rfl
theorem W3_arg16 : W3 m ρ c (Proc.devRef .tc main_arg16) = W2 m ρ c (Proc.devRef .tc main_arg16) := by
  show StableHlo.after hostOps1 (W2 m ρ c) (Proc.devRef .tc main_arg16) = _
  after_results_simp <;> rfl
theorem W3_v37 : W3 m ρ c (Proc.devRef .tc main_v37) = shapeCast S1x64 (W2 m ρ c (Proc.devRef .tc main_arg11)) shapeCasts_S64_S1x64 := by
  show StableHlo.after hostOps1 (W2 m ρ c) (Proc.devRef .tc main_v37) = _
  after_results_simp <;> rfl
theorem W3_v38 : W3 m ρ c (Proc.devRef .tc main_v38) = shapeCast S1x64 (W2 m ρ c (Proc.devRef .tc main_arg12)) shapeCasts_S64_S1x64 := by
  show StableHlo.after hostOps1 (W2 m ρ c) (Proc.devRef .tc main_v38) = _
  after_results_simp <;> rfl
theorem W3_v39 : W3 m ρ c (Proc.devRef .tc main_v39) = shapeCast S1x64 (W2 m ρ c (Proc.devRef .tc main_arg13)) shapeCasts_S64_S1x64 := by
  show StableHlo.after hostOps1 (W2 m ρ c) (Proc.devRef .tc main_v39) = _
  after_results_simp <;> rfl
theorem W3_v40 : W3 m ρ c (Proc.devRef .tc main_v40) = shapeCast S1x64 (W2 m ρ c (Proc.devRef .tc main_arg14)) shapeCasts_S64_S1x64 := by
  show StableHlo.after hostOps1 (W2 m ρ c) (Proc.devRef .tc main_v40) = _
  after_results_simp <;> rfl
theorem W3_v41 : W3 m ρ c (Proc.devRef .tc main_v41) = shapeCast S1x64 (W2 m ρ c (Proc.devRef .tc main_arg15)) shapeCasts_S64_S1x64 := by
  show StableHlo.after hostOps1 (W2 m ρ c) (Proc.devRef .tc main_v41) = _
  after_results_simp <;> rfl
theorem W3_v42 : W3 m ρ c (Proc.devRef .tc main_v42) = shapeCast S1x64 (W2 m ρ c (Proc.devRef .tc main_arg17)) shapeCasts_S64_S1x64 := by
  show StableHlo.after hostOps1 (W2 m ρ c) (Proc.devRef .tc main_v42) = _
  after_results_simp <;> rfl

end Cert.KernelIdeal.Glue

end
-- ==== Proof.KernelValue.lean ====
/-
  The kernel's program as one function of its nineteen argument arrays: aggregate the neighbours of the features, run
  the first launch (the rectified first perceptron, row by row), aggregate the neighbours of its result, run the second
  launch (the second perceptron). What the result array holds when @main returns is this function of the launch
  contents: the second launch's result array, read back through the host operations between the launches to the first
  launch's result array, and through the host operations before it to the arguments.
-/
import proofs.«118283_j42872363549081_1_alg».proof.Proof.Region0
import proofs.«118283_j42872363549081_1_alg».proof.Proof.Region1
import proofs.«118283_j42872363549081_1_alg».proof.Proof.Glue0
import proofs.«118283_j42872363549081_1_alg».proof.Proof.Glue1

set_option maxRecDepth 16384

noncomputable section

namespace Cert.KernelIdeal.Whole

open Cert.KernelIdeal Cert.KernelIdeal.Gen Cert.KernelIdeal.Agg
open Idealize.ShloMosaic Idealize.ShloMosaic.TcCoe Idealize.SL.Sem

/-- The hidden features the first launch leaves. -/
def hidden (a0 : FVec Ideal S100000x128 .f32) (a1 : FVec Ideal S1600000 .f32) (a2 : FVec Ideal S128x32 .f32)
    (a3 a4 a5 a6 a7 : FVec Ideal S32 .f32) (a8 : FVec Ideal S32x32 .f32) (a9 : FVec Ideal S32 .f32)
    (a18 : (⟨S2x1600000, .i32⟩ : BufTy).Contents (Elt Ideal)) : FVec Ideal S100000x32 .f32 :=
  Region0.layer a0 (agg128 a0 (src a18) (dst a18) a1) a2 (shapeCast S1x32 a3 shapeCasts_S32_S1x32)
    (shapeCast S1x32 a4 shapeCasts_S32_S1x32) (shapeCast S1x32 a5 shapeCasts_S32_S1x32) (shapeCast S1x32 a6 shapeCasts_S32_S1x32)
    (shapeCast S1x32 a7 shapeCasts_S32_S1x32) a8 (shapeCast S1x32 a9 shapeCasts_S32_S1x32)

/-- The kernel program's result as one function of the argument arrays. -/
def result (a0 : FVec Ideal S100000x128 .f32) (a1 : FVec Ideal S1600000 .f32) (a2 : FVec Ideal S128x32 .f32)
    (a3 a4 a5 a6 a7 : FVec Ideal S32 .f32) (a8 : FVec Ideal S32x32 .f32) (a9 : FVec Ideal S32 .f32)
    (a10 : FVec Ideal S32x64 .f32) (a11 a12 a13 a14 a15 : FVec Ideal S64 .f32) (a16 : FVec Ideal S64x64 .f32) (a17 : FVec Ideal S64 .f32)
    (a18 : (⟨S2x1600000, .i32⟩ : BufTy).Contents (Elt Ideal)) : FVec Ideal S100000x64 .f32 :=
  Region1.layer (hidden a0 a1 a2 a3 a4 a5 a6 a7 a8 a9 a18)
    (agg32 (hidden a0 a1 a2 a3 a4 a5 a6 a7 a8 a9 a18) (src a18) (dst a18) a1) a10 (shapeCast S1x64 a11 shapeCasts_S64_S1x64)
    (shapeCast S1x64 a12 shapeCasts_S64_S1x64) (shapeCast S1x64 a13 shapeCasts_S64_S1x64) (shapeCast S1x64 a14 shapeCasts_S64_S1x64)
    (shapeCast S1x64 a15 shapeCasts_S64_S1x64) a16 (shapeCast S1x64 a17 shapeCasts_S64_S1x64)

variable (m : (ℓ : Loc nD τ sig) → Buf (Elt Ideal) ℓ) (ρ : Dev nD → PrngReg) (c : Dev nD)

/-- The first launch's result array, as the second stretch of host operations finds it. -/
theorem hidden_eq : W2 m ρ c (Proc.devRef .tc main_v23)
    = hidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg18)) := by
  rw [show W2 m ρ c (Proc.devRef .tc main_v23) = (dat0 (V1 m ρ) c).arrAt 10 cfg0.N from W2_arr m ρ c 10, Region0.final]
  show Region0.layer (W1 m ρ c (Proc.devRef .tc main_arg0)) (W1 m ρ c (Proc.devRef .tc main_v16)) (W1 m ρ c (Proc.devRef .tc main_arg2))
    (W1 m ρ c (Proc.devRef .tc main_v17)) (W1 m ρ c (Proc.devRef .tc main_v18)) (W1 m ρ c (Proc.devRef .tc main_v19))
    (W1 m ρ c (Proc.devRef .tc main_v20)) (W1 m ρ c (Proc.devRef .tc main_v21)) (W1 m ρ c (Proc.devRef .tc main_arg8))
    (W1 m ρ c (Proc.devRef .tc main_v22)) = _
  rw [Glue.W1_arg0, Glue.W1_v16, Glue.W1_arg2, Glue.W1_v17, Glue.W1_v18, Glue.W1_v19, Glue.W1_v20, Glue.W1_v21, Glue.W1_arg8,
    Glue.W1_v22]
  rfl

/-- THE RESULT ARRAY when @main returns. -/
theorem result_eq : W4 m ρ c (Proc.devRef .tc main_v43)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) := by
  rw [show W4 m ρ c (Proc.devRef .tc main_v43) = (dat1 (V3 m ρ) c).arrAt 10 cfg1.N from W4_arr m ρ c 10, Region1.final]
  show Region1.layer (W3 m ρ c (Proc.devRef .tc main_v23)) (W3 m ρ c (Proc.devRef .tc main_v36)) (W3 m ρ c (Proc.devRef .tc main_arg10))
    (W3 m ρ c (Proc.devRef .tc main_v37)) (W3 m ρ c (Proc.devRef .tc main_v38)) (W3 m ρ c (Proc.devRef .tc main_v39))
    (W3 m ρ c (Proc.devRef .tc main_v40)) (W3 m ρ c (Proc.devRef .tc main_v41)) (W3 m ρ c (Proc.devRef .tc main_arg16))
    (W3 m ρ c (Proc.devRef .tc main_v42)) = _
  rw [Glue.W3_v23, Glue.W3_v36, Glue.W3_arg10, Glue.W3_v37, Glue.W3_v38, Glue.W3_v39, Glue.W3_v40, Glue.W3_v41, Glue.W3_arg16,
    Glue.W3_v42]
  rw [W2_of_ne m ρ c main_v1 (by decide), W2_of_ne m ρ c main_v3 (by decide), W2_of_ne m ρ c main_arg1 (by decide),
    W2_of_ne m ρ c main_arg10 (by decide), W2_of_ne m ρ c main_arg11 (by decide), W2_of_ne m ρ c main_arg12 (by decide),
    W2_of_ne m ρ c main_arg13 (by decide), W2_of_ne m ρ c main_arg14 (by decide), W2_of_ne m ρ c main_arg15 (by decide),
    W2_of_ne m ρ c main_arg16 (by decide), W2_of_ne m ρ c main_arg17 (by decide)]
  rw [Glue.W1_v1, Glue.W1_v3, Glue.W1_arg1, Glue.W1_arg10, Glue.W1_arg11, Glue.W1_arg12, Glue.W1_arg13, Glue.W1_arg14,
    Glue.W1_arg15, Glue.W1_arg16, Glue.W1_arg17, hidden_eq]
  rfl

end Cert.KernelIdeal.Whole

end
-- ==== Proof.LibBcast.lean ====
/-
  A vector broadcast along rows, read at an entry.

  The host spells "add a vector to every row of a matrix" as two broadcasts: a [b] vector to a one-row [1, b] matrix,
  then that row to an [a, b] matrix. Entry (r, q) of the result is entry q of the vector. A scalar broadcast to any
  shape reads the scalar everywhere.
-/
import Idealize.ShloMosaic.Lib.ValueIdx
import Idealize.ShloMosaic.Lib.Pipeline.Value

noncomputable section

namespace Cert.LibBcast

open Idealize.ShloMosaic Idealize.ShloMosaic.ValueIdx

variable {α : Type}

/-- A [b] vector broadcast to a one-row matrix reads, at (u, q), the vector at q. -/
theorem vec_to_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) := by
  refine broadcastInDim_apply (![1] : Fin 1 → Fin 2) h v (ix2 u q) (ix1 q) fun ax => ?_
  match ax with
  | ⟨0, _⟩ =>
    show q.val = if b = 1 then 0 else q.val
    split
    · have := q.isLt; omega
    · rfl

/-- A one-row matrix broadcast over a rows reads, at (r, q), the row at q. -/
theorem row_to_rows_apply {a b : ℕ} (v : (⟨2, ![1, b]⟩ : Shape).Idx → α)
    (h : (⟨2, ![1, b]⟩ : Shape).BroadcastsInDim ⟨2, ![a, b]⟩ (![0, 1] : Fin 2 → Fin 2)) (r : Fin a) (q : Fin b) :
    broadcastInDim ⟨2, ![a, b]⟩ ![0, 1] h v (ix2 r q) = v (ix2 (0 : Fin 1) q) := by
  refine broadcastInDim_apply (![0, 1] : Fin 2 → Fin 2) h v (ix2 r q) (ix2 (0 : Fin 1) q) fun ax => ?_
  match ax with
  | ⟨0, _⟩ => rfl
  | ⟨1, _⟩ =>
    show q.val = if b = 1 then 0 else q.val
    split
    · have := q.isLt; omega
    · rfl

/-- The two together: a vector added to every row. -/
theorem vec_to_rows_apply {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (q : Fin b) :
    broadcastInDim ⟨2, ![a, b]⟩ ![0, 1] h2 (broadcastInDim ⟨2, ![1, b]⟩ ![1] h1 v) (ix2 r q) = v (ix1 q) := by
  rw [row_to_rows_apply, vec_to_row_apply]

/-- A scalar broadcast to any shape reads the scalar everywhere. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply (![] : Fin 0 → Fin t.rank) h x j ix0 fun ax => ax.elim0

end Cert.LibBcast

end
-- ==== Proof.RefLayers.lean ====
/-
  The reference's two perceptrons, each as the host operations print it, read at an entry.

  On the host a layer is: a general dot of the row features with the first weight matrix, the bias vector added to
  every row, the running mean subtracted, the product with the reciprocal square root of variance + ε, with gamma,
  the shift by beta, the rectifier (a maximum with a zero matrix), a second general dot, the second bias. Read at
  entry (r, q) this is the perceptron's output q of row r; the first layer ends with one more rectifier.
-/
import proofs.«118283_j42872363549081_1_alg».proof.Proof.Gen.ReferenceIdeal
import proofs.«118283_j42872363549081_1_alg».proof.Proof.LibDense
import proofs.«118283_j42872363549081_1_alg».proof.Proof.LibBcast
import proofs.«118283_j42872363549081_1_alg».proof.Proof.MlpSpec
import Idealize.ShloMosaic.Lib.ValueIdx
import Idealize.ShloMosaic.PureOps.Ideal.Laws

noncomputable section

open scoped BigOperators

namespace Cert.ReferenceIdeal.Layers

open Cert.ReferenceIdeal Cert.ReferenceIdeal.Gen Idealize.ShloMosaic Idealize.ShloMosaic.ValueIdx Cert.MlpSpec

/-- The first layer on the host, from the summed features h = x + neighbours: the operations as printed. -/
def layer1 (h : FVec Ideal S100000x128 .f32) (Wa : FVec Ideal S128x32 .f32) (ba g be mn vr : FVec Ideal S32 .f32)
    (Wb : FVec Ideal S32x32 .f32) (bb : FVec Ideal S32 .f32) : FVec Ideal S100000x32 .f32 :=
  maximumf (addf (Host.dotGeneral dot_S100000x32_S32x32_S100000x32_1_0_0_1_n_n none (maximumf (addf (mulf (mulf (subf (addf
    (Host.dotGeneral dot_S100000x128_S128x32_S100000x32_1_0_0_1_n_n none h Wa)
    (broadcastInDim S100000x32 ![0, 1] bcast_S1x32_S100000x32_0_1 (broadcastInDim S1x32 ![1] bcast_S32_S1x32_1 ba)))
    (broadcastInDim S100000x32 ![0, 1] bcast_S1x32_S100000x32_0_1 (broadcastInDim S1x32 ![1] bcast_S32_S1x32_1 mn)))
    (broadcastInDim S100000x32 ![0, 1] bcast_S1x32_S100000x32_0_1 (broadcastInDim S1x32 ![1] bcast_S32_S1x32_1
      (Host.rsqrt (addf vr (broadcastInDim S32 ![] bcast_S_S32 (constant S_ .f32 0x3727C5AC#32)))))))
    (broadcastInDim S100000x32 ![0, 1] bcast_S1x32_S100000x32_0_1 (broadcastInDim S1x32 ![1] bcast_S32_S1x32_1 g)))
    (broadcastInDim S100000x32 ![0, 1] bcast_S1x32_S100000x32_0_1 (broadcastInDim S1x32 ![1] bcast_S32_S1x32_1 be)))
    (broadcastInDim S100000x32 ![] bcast_S_S100000x32 (constant S_ .f32 0x00000000#32))) Wb)
    (broadcastInDim S100000x32 ![0, 1] bcast_S1x32_S100000x32_0_1 (broadcastInDim S1x32 ![1] bcast_S32_S1x32_1 bb)))
    (broadcastInDim S100000x32 ![] bcast_S_S100000x32 (constant S_ .f32 0x00000000#32))

/-- The second layer on the host, from the summed hidden features: the operations as printed (no last rectifier). -/
def layer2 (h : FVec Ideal S100000x32 .f32) (Wa : FVec Ideal S32x64 .f32) (ba g be mn vr : FVec Ideal S64 .f32)
    (Wb : FVec Ideal S64x64 .f32) (bb : FVec Ideal S64 .f32) : FVec Ideal S100000x64 .f32 :=
  addf (Host.dotGeneral dot_S100000x64_S64x64_S100000x64_1_0_0_1_n_n none (maximumf (addf (mulf (mulf (subf (addf
    (Host.dotGeneral dot_S100000x32_S32x64_S100000x64_1_0_0_1_n_n none h Wa)
    (broadcastInDim S100000x64 ![0, 1] bcast_S1x64_S100000x64_0_1 (broadcastInDim S1x64 ![1] bcast_S64_S1x64_1 ba)))
    (broadcastInDim S100000x64 ![0, 1] bcast_S1x64_S100000x64_0_1 (broadcastInDim S1x64 ![1] bcast_S64_S1x64_1 mn)))
    (broadcastInDim S100000x64 ![0, 1] bcast_S1x64_S100000x64_0_1 (broadcastInDim S1x64 ![1] bcast_S64_S1x64_1
      (Host.rsqrt (addf vr (broadcastInDim S64 ![] bcast_S_S64 (constant S_ .f32 0x3727C5AC#32)))))))
    (broadcastInDim S100000x64 ![0, 1] bcast_S1x64_S100000x64_0_1 (broadcastInDim S1x64 ![1] bcast_S64_S1x64_1 g)))
    (broadcastInDim S100000x64 ![0, 1] bcast_S1x64_S100000x64_0_1 (broadcastInDim S1x64 ![1] bcast_S64_S1x64_1 be)))
    (broadcastInDim S100000x64 ![] bcast_S_S100000x64 (constant S_ .f32 0x00000000#32))) Wb)
    (broadcastInDim S100000x64 ![0, 1] bcast_S1x64_S100000x64_0_1 (broadcastInDim S1x64 ![1] bcast_S64_S1x64_1 bb))

/-- Entry (r, q) of the first host layer is the rectified output q of row r. -/
theorem layer1_apply (h : FVec Ideal S100000x128 .f32) (Wa : FVec Ideal S128x32 .f32) (ba g be mn vr : FVec Ideal S32 .f32)
    (Wb : FVec Ideal S32x32 .f32) (bb : FVec Ideal S32 .f32) (r : Fin 100000) (q : Fin 32) :
    layer1 h Wa ba g be mn vr Wb bb (ix2 r q)
      = max (outputUnit (fun j : Fin 128 => h (ix2 r j)) (fun j k => Wa (ix2 j k)) (fun k => ba (ix1 k)) (fun k => mn (ix1 k))
          (fun k => vr (ix1 k)) (fun k => g (ix1 k)) (fun k => be (ix1 k)) (fun k q => Wb (ix2 k q)) (fun q => bb (ix1 q)) q) floor0 := by
  have hrow : ∀ (v : FVec Ideal S32 .f32) (x : Fin 32), broadcastInDim S100000x32 ![0, 1] bcast_S1x32_S100000x32_0_1
      (broadcastInDim S1x32 ![1] bcast_S32_S1x32_1 v) (ix2 r x) = v (ix1 x) :=
    fun v x => LibBcast.vec_to_rows_apply v _ _ r x
  have hzero : ∀ j : S100000x32.Idx, broadcastInDim S100000x32 ![] bcast_S_S100000x32 (constant (F := Ideal) S_ .f32 0x00000000#32) j = floor0 :=
    fun j => (LibBcast.scalar_apply (constant (F := Ideal) S_ .f32 0x00000000#32) bcast_S_S100000x32 j).trans rfl
  have hvar : ∀ x : Fin 32, Host.rsqrt (addf vr (broadcastInDim S32 ![] bcast_S_S32 (constant S_ .f32 0x3727C5AC#32))) (ix1 x)
      = Ideal.rsqrt (vr (ix1 x) + eps) := fun x => by
    show Ideal.rsqrt (vr (ix1 x) + broadcastInDim S32 ![] bcast_S_S32 (constant (F := Ideal) S_ .f32 0x3727C5AC#32) (ix1 x)) = _
    rw [LibBcast.scalar_apply]; rfl
  unfold layer1 outputUnit hiddenUnit
  simp only [maximumf_apply, addf_apply, subf_apply, mulf_apply, Host.dotGeneral, hrow, hzero, hvar,
    LibDense.dotGeneral_apply dot_S100000x32_S32x32_S100000x32_1_0_0_1_n_n none _ rfl rfl rfl rfl rfl rfl,
    LibDense.dotGeneral_apply dot_S100000x128_S128x32_S100000x32_1_0_0_1_n_n none _ rfl rfl rfl rfl rfl rfl]

/-- Entry (r, q) of the second host layer is output q of row r. -/
theorem layer2_apply (h : FVec Ideal S100000x32 .f32) (Wa : FVec Ideal S32x64 .f32) (ba g be mn vr : FVec Ideal S64 .f32)
    (Wb : FVec Ideal S64x64 .f32) (bb : FVec Ideal S64 .f32) (r : Fin 100000) (q : Fin 64) :
    layer2 h Wa ba g be mn vr Wb bb (ix2 r q)
      = outputUnit (fun j : Fin 32 => h (ix2 r j)) (fun j k => Wa (ix2 j k)) (fun k => ba (ix1 k)) (fun k => mn (ix1 k))
          (fun k => vr (ix1 k)) (fun k => g (ix1 k)) (fun k => be (ix1 k)) (fun k q => Wb (ix2 k q)) (fun q => bb (ix1 q)) q := by
  have hrow : ∀ (v : FVec Ideal S64 .f32) (x : Fin 64), broadcastInDim S100000x64 ![0, 1] bcast_S1x64_S100000x64_0_1
      (broadcastInDim S1x64 ![1] bcast_S64_S1x64_1 v) (ix2 r x) = v (ix1 x) :=
    fun v x => LibBcast.vec_to_rows_apply v _ _ r x
  have hzero : ∀ j : S100000x64.Idx, broadcastInDim S100000x64 ![] bcast_S_S100000x64 (constant (F := Ideal) S_ .f32 0x00000000#32) j = floor0 :=
    fun j => (LibBcast.scalar_apply (constant (F := Ideal) S_ .f32 0x00000000#32) bcast_S_S100000x64 j).trans rfl
  have hvar : ∀ x : Fin 64, Host.rsqrt (addf vr (broadcastInDim S64 ![] bcast_S_S64 (constant S_ .f32 0x3727C5AC#32))) (ix1 x)
      = Ideal.rsqrt (vr (ix1 x) + eps) := fun x => by
    show Ideal.rsqrt (vr (ix1 x) + broadcastInDim S64 ![] bcast_S_S64 (constant (F := Ideal) S_ .f32 0x3727C5AC#32) (ix1 x)) = _
    rw [LibBcast.scalar_apply]; rfl
  unfold layer2 outputUnit hiddenUnit
  simp only [maximumf_apply, addf_apply, subf_apply, mulf_apply, Host.dotGeneral, hrow, hzero, hvar,
    LibDense.dotGeneral_apply dot_S100000x64_S64x64_S100000x64_1_0_0_1_n_n none _ rfl rfl rfl rfl rfl rfl,
    LibDense.dotGeneral_apply dot_S100000x32_S32x64_S100000x64_1_0_0_1_n_n none _ rfl rfl rfl rfl rfl rfl]

end Cert.ReferenceIdeal.Layers

end
-- ==== Proof.RefSpec.lean ====
/-
  The reference as one function of its nineteen argument arrays: aggregate the neighbours of the features, first
  perceptron, aggregate the neighbours of its result, second perceptron. The aggregation is the host chain as the
  reference prints it (gather the source rows, scale by the edge weights, add into the destination rows); it is
  carried as one function and never opened.
-/
import proofs.«118283_j42872363549081_1_alg».proof.Proof.RefLayers
import proofs.«118283_j42872363549081_1_alg».proof.Proof.Gen.ReferenceIdeal.Run

set_option maxRecDepth 16384

noncomputable section

namespace Cert.ReferenceIdeal.Spec

open Cert.ReferenceIdeal Cert.ReferenceIdeal.Gen Cert.ReferenceIdeal.Layers Idealize.ShloMosaic Idealize.ShloMosaic.TcCoe Idealize.SL.Sem

/-- Row 0 of the edge-index matrix: each edge's source node. -/
def src (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- Row 1 of the edge-index matrix: each edge's destination node. -/
def dst (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- Weighted neighbour sums of a 128-feature array. -/
def agg128 (x : FVec Ideal S100000x128 .f32) (s d : (⟨S1600000, .i32⟩ : BufTy).Contents (Elt Ideal)) (w : FVec Ideal S1600000 .f32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf
      (Host.gather gather_S100000x128_S1600000x1_S1600000x128_1_0_n_n_0_1_1128 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      (broadcastInDim S1600000x128 ![0, 1] bcast_S1600000x1_S1600000x128_0_1
        (broadcastInDim S1600000x1 ![0] bcast_S1600000_S1600000x1_0 w)))

/-- Weighted neighbour sums of a 32-feature array. -/
def agg32 (x : FVec Ideal S100000x32 .f32) (s d : (⟨S1600000, .i32⟩ : BufTy).Contents (Elt Ideal)) (w : FVec Ideal S1600000 .f32) :
    FVec Ideal S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (mulf
      (Host.gather gather_S100000x32_S1600000x1_S1600000x32_1_0_n_n_0_1_132 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      (broadcastInDim S1600000x32 ![0, 1] bcast_S1600000x1_S1600000x32_0_1
        (broadcastInDim S1600000x1 ![0] bcast_S1600000_S1600000x1_0 w)))

/-- The hidden features after the first layer. -/
def hidden (a0 : FVec Ideal S100000x128 .f32) (a1 : FVec Ideal S1600000 .f32) (a2 : FVec Ideal S128x32 .f32)
    (a3 a4 a5 a6 a7 : FVec Ideal S32 .f32) (a8 : FVec Ideal S32x32 .f32) (a9 : FVec Ideal S32 .f32)
    (a18 : (⟨S2x1600000, .i32⟩ : BufTy).Contents (Elt Ideal)) : FVec Ideal S100000x32 .f32 :=
  layer1 (addf a0 (agg128 a0 (src a18) (dst a18) a1)) a2 a3 a4 a5 a6 a7 a8 a9

/-- The reference's result as one function of the argument arrays. -/
def result (a0 : FVec Ideal S100000x128 .f32) (a1 : FVec Ideal S1600000 .f32) (a2 : FVec Ideal S128x32 .f32)
    (a3 a4 a5 a6 a7 : FVec Ideal S32 .f32) (a8 : FVec Ideal S32x32 .f32) (a9 : FVec Ideal S32 .f32)
    (a10 : FVec Ideal S32x64 .f32) (a11 a12 a13 a14 a15 : FVec Ideal S64 .f32) (a16 : FVec Ideal S64x64 .f32) (a17 : FVec Ideal S64 .f32)
    (a18 : (⟨S2x1600000, .i32⟩ : BufTy).Contents (Elt Ideal)) : FVec Ideal S100000x64 .f32 :=
  layer2 (addf (hidden a0 a1 a2 a3 a4 a5 a6 a7 a8 a9 a18) (agg32 (hidden a0 a1 a2 a3 a4 a5 a6 a7 a8 a9 a18) (src a18) (dst a18) a1))
    a10 a11 a12 a13 a14 a15 a16 a17

set_option maxHeartbeats 4000000 in
/-- The run's composed term is that function of the launch contents of the arguments. -/
theorem res_eq (m : (ℓ : Loc nD τ sig) → Buf (Elt Ideal) ℓ) (c : Dev nD) :
    Cert.ReferenceIdeal.Value.res_main_v84 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) := by
  unfold Cert.ReferenceIdeal.Value.res_main_v84 result hidden layer2 layer1 agg32 agg128 src dst
  rfl

end Cert.ReferenceIdeal.Spec

end
-- ==== Proof.Bridge.lean ====
/-
  The two programs compute one function of the argument arrays.

  The neighbour aggregation is the same host chain on both sides (same operations, same dimension numbers), so it is
  one function of its operands. A layer of the kernel's program, over whole arrays, reads each entry (r, q) as the
  perceptron's output q of row r of features + neighbours, with the parameter vectors read through their one-row
  reshapes; the reference's layer reads the same entry as the same sums, with the parameter vectors read through
  their broadcasts. A reshape of a vector to one row and a broadcast of it along rows both read entry k of the vector,
  so the layers agree entry by entry, and the two programs' results with them.
-/
import proofs.«118283_j42872363549081_1_alg».proof.Proof.KernelValue
import proofs.«118283_j42872363549081_1_alg».proof.Proof.RefSpec
import Idealize.ShloMosaic.Lib.ValueLayout

set_option maxRecDepth 16384

noncomputable section

namespace Cert.Bridge

open Idealize.ShloMosaic Idealize.ShloMosaic.ValueIdx Cert.MlpSpec

/-! ## The aggregation is one function on both sides -/

theorem src_eq (ei : (⟨Cert.KernelIdeal.S2x1600000, .i32⟩ : BufTy).Contents (Elt Ideal)) :
    Cert.KernelIdeal.Agg.src ei = Cert.ReferenceIdeal.Spec.src ei := rfl
theorem dst_eq (ei : (⟨Cert.KernelIdeal.S2x1600000, .i32⟩ : BufTy).Contents (Elt Ideal)) :
    Cert.KernelIdeal.Agg.dst ei = Cert.ReferenceIdeal.Spec.dst ei := rfl
theorem agg128_eq (x : FVec Ideal Cert.KernelIdeal.S100000x128 .f32)
    (s d : (⟨Cert.KernelIdeal.S1600000, .i32⟩ : BufTy).Contents (Elt Ideal)) (w : FVec Ideal Cert.KernelIdeal.S1600000 .f32) :
    Cert.KernelIdeal.Agg.agg128 x s d w = Cert.ReferenceIdeal.Spec.agg128 x s d w := rfl
theorem agg32_eq (x : FVec Ideal Cert.KernelIdeal.S100000x32 .f32)
    (s d : (⟨Cert.KernelIdeal.S1600000, .i32⟩ : BufTy).Contents (Elt Ideal)) (w : FVec Ideal Cert.KernelIdeal.S1600000 .f32) :
    Cert.KernelIdeal.Agg.agg32 x s d w = Cert.ReferenceIdeal.Spec.agg32 x s d w := rfl

/-! ## The layers agree entry by entry -/

theorem layer1_eq (X A : FVec Ideal Cert.KernelIdeal.S100000x128 .f32) (Wa : FVec Ideal Cert.KernelIdeal.S128x32 .f32)
    (ba g be mn vr : FVec Ideal Cert.KernelIdeal.S32 .f32) (Wb : FVec Ideal Cert.KernelIdeal.S32x32 .f32)
    (bb : FVec Ideal Cert.KernelIdeal.S32 .f32) :
    Cert.KernelIdeal.Region0.layer X A Wa (shapeCast Cert.KernelIdeal.S1x32 ba Cert.KernelIdeal.Gen.shapeCasts_S32_S1x32)
      (shapeCast Cert.KernelIdeal.S1x32 g Cert.KernelIdeal.Gen.shapeCasts_S32_S1x32)
      (shapeCast Cert.KernelIdeal.S1x32 be Cert.KernelIdeal.Gen.shapeCasts_S32_S1x32)
      (shapeCast Cert.KernelIdeal.S1x32 mn Cert.KernelIdeal.Gen.shapeCasts_S32_S1x32)
      (shapeCast Cert.KernelIdeal.S1x32 vr Cert.KernelIdeal.Gen.shapeCasts_S32_S1x32) Wb
      (shapeCast Cert.KernelIdeal.S1x32 bb Cert.KernelIdeal.Gen.shapeCasts_S32_S1x32)
      = Cert.ReferenceIdeal.Layers.layer1 (addf X A) Wa ba g be mn vr Wb bb := by
  funext i
  obtain ⟨r, q, rfl⟩ : ∃ (r : Fin 100000) (q : Fin 32), i = ix2 r q := ⟨i 0, i 1, eq_ix2 i⟩
  rw [Cert.ReferenceIdeal.Layers.layer1_apply]
  unfold Cert.KernelIdeal.Region0.layer
  simp only [shapeCast_a_1a_apply, addf_apply]

theorem layer2_eq (X A : FVec Ideal Cert.KernelIdeal.S100000x32 .f32) (Wa : FVec Ideal Cert.KernelIdeal.S32x64 .f32)
    (ba g be mn vr : FVec Ideal Cert.KernelIdeal.S64 .f32) (Wb : FVec Ideal Cert.KernelIdeal.S64x64 .f32)
    (bb : FVec Ideal Cert.KernelIdeal.S64 .f32) :
    Cert.KernelIdeal.Region1.layer X A Wa (shapeCast Cert.KernelIdeal.S1x64 ba Cert.KernelIdeal.Gen.shapeCasts_S64_S1x64)
      (shapeCast Cert.KernelIdeal.S1x64 g Cert.KernelIdeal.Gen.shapeCasts_S64_S1x64)
      (shapeCast Cert.KernelIdeal.S1x64 be Cert.KernelIdeal.Gen.shapeCasts_S64_S1x64)
      (shapeCast Cert.KernelIdeal.S1x64 mn Cert.KernelIdeal.Gen.shapeCasts_S64_S1x64)
      (shapeCast Cert.KernelIdeal.S1x64 vr Cert.KernelIdeal.Gen.shapeCasts_S64_S1x64) Wb
      (shapeCast Cert.KernelIdeal.S1x64 bb Cert.KernelIdeal.Gen.shapeCasts_S64_S1x64)
      = Cert.ReferenceIdeal.Layers.layer2 (addf X A) Wa ba g be mn vr Wb bb := by
  funext i
  obtain ⟨r, q, rfl⟩ : ∃ (r : Fin 100000) (q : Fin 64), i = ix2 r q := ⟨i 0, i 1, eq_ix2 i⟩
  rw [Cert.ReferenceIdeal.Layers.layer2_apply]
  unfold Cert.KernelIdeal.Region1.layer
  simp only [shapeCast_a_1a_apply, addf_apply]

/-! ## The programs agree -/

theorem result_eq (a0 : FVec Ideal Cert.KernelIdeal.S100000x128 .f32) (a1 : FVec Ideal Cert.KernelIdeal.S1600000 .f32)
    (a2 : FVec Ideal Cert.KernelIdeal.S128x32 .f32) (a3 a4 a5 a6 a7 : FVec Ideal Cert.KernelIdeal.S32 .f32)
    (a8 : FVec Ideal Cert.KernelIdeal.S32x32 .f32) (a9 : FVec Ideal Cert.KernelIdeal.S32 .f32)
    (a10 : FVec Ideal Cert.KernelIdeal.S32x64 .f32) (a11 a12 a13 a14 a15 : FVec Ideal Cert.KernelIdeal.S64 .f32)
    (a16 : FVec Ideal Cert.KernelIdeal.S64x64 .f32) (a17 : FVec Ideal Cert.KernelIdeal.S64 .f32)
    (a18 : (⟨Cert.KernelIdeal.S2x1600000, .i32⟩ : BufTy).Contents (Elt Ideal)) :
    Cert.KernelIdeal.Whole.result a0 a1 a2 a3 a4 a5 a6 a7 a8 a9 a10 a11 a12 a13 a14 a15 a16 a17 a18
      = Cert.ReferenceIdeal.Spec.result a0 a1 a2 a3 a4 a5 a6 a7 a8 a9 a10 a11 a12 a13 a14 a15 a16 a17 a18 := by
  unfold Cert.KernelIdeal.Whole.result Cert.ReferenceIdeal.Spec.result Cert.KernelIdeal.Whole.hidden Cert.ReferenceIdeal.Spec.hidden
  rw [layer2_eq, layer1_eq, agg32_eq, agg128_eq, src_eq, dst_eq]

end Cert.Bridge

end
-- ==== Proof.lean ====
/-
  Two-layer graph-isomorphism message passing: the kernel's program against the jnp reference, over the extended reals.

  Both programs aggregate each node's neighbours (gather the source rows, scale by the edge weights, add into the
  destination rows), add the node's own features, and apply a perceptron: linear map, normalisation by running
  statistics, rectifier, linear map. They do it twice, with a rectifier between. The kernel's program runs each
  perceptron as a launch over 20 blocks of 5000 rows, with its matrix products taken in a narrower float format;
  the reference runs it as host operations over all 100000 rows. Over the extended reals a change of float format is
  the identity and a matrix product is its plain sum over k, in the launch as on the host, so each launch writes, row by
  row, exactly the reference's layer of the same rows; the blocks tile the rows, so the arrays agree. The aggregation
  is the same host chain in both programs and is carried through as one function. No law of arithmetic beyond the
  definitions is used, so the precondition (finite inputs) is never opened.

  The frames of the two kernel programs are the generated ones; the reference's frame is its generated run with the
  result dropped; nothing was rewritten in idealizing the kernel, so that conjunct is trivial.
-/
import proofs.«118283_j42872363549081_1_alg».proof.Defs
import proofs.«118283_j42872363549081_1_alg».proof.Proof.Gen.Kernel
import proofs.«118283_j42872363549081_1_alg».proof.Proof.Gen.Kernel.Skeleton
import proofs.«118283_j42872363549081_1_alg».proof.Proof.Gen.Kernel.Launch
import proofs.«118283_j42872363549081_1_alg».proof.Proof.Gen.Kernel.Points
import proofs.«118283_j42872363549081_1_alg».proof.Proof.Gen.Kernel.Frame
import proofs.«118283_j42872363549081_1_alg».proof.Proof.Gen.KernelIdeal
import proofs.«118283_j42872363549081_1_alg».proof.Proof.Gen.KernelIdeal.Skeleton
import proofs.«118283_j42872363549081_1_alg».proof.Proof.Gen.KernelIdeal.Launch
import proofs.«118283_j42872363549081_1_alg».proof.Proof.Gen.KernelIdeal.Points
import proofs.«118283_j42872363549081_1_alg».proof.Proof.Gen.KernelIdeal.Frame
import proofs.«118283_j42872363549081_1_alg».proof.Proof.Gen.ReferenceIdeal
import proofs.«118283_j42872363549081_1_alg».proof.Proof.Gen.ReferenceIdeal.Run
import proofs.«118283_j42872363549081_1_alg».proof.Proof.Gen.Pre_finite_inputs
import proofs.«118283_j42872363549081_1_alg».proof.Proof.KernelRun
import proofs.«118283_j42872363549081_1_alg».proof.Proof.KernelValue
import proofs.«118283_j42872363549081_1_alg».proof.Proof.RefSpec
import proofs.«118283_j42872363549081_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- Both programs end with the result array at one function of the argument arrays: the kernel's by its run with the
    result named, read back through the launches and the host operations; the reference's by its run's composed term. -/
theorem algebraic : Cert.algebraic_KernelIdeal_ReferenceIdeal := by
  intro m ρ m' ρ' _ hagree
  refine ⟨fun c => Cert.KernelIdeal.Whole.result
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Whole.result_eq m ρ c), (h c).2⟩)
      (Cert.KernelIdeal.RunOut.run_out m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rewrite [Cert.ReferenceIdeal.Spec.res_eq, h0, h1, h2, h3, h4, h5, h6, h7, h8, h9, h10, h11, h12, h13, h14, h15, h16, h17, h18]
    exact (Cert.Bridge.result_eq _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
